-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩

class Facts : Prop where
  bcast_S_S8x16x32x32 : S_.BroadcastsInDim S8x16x32x32 (![] : Fin 0 → Fin S8x16x32x32.rank)
  reducesTo_S8x16x32x32_S_d0_1_2_3 : S8x16x32x32.ReducesTo [0, 1, 2, 3] S_
  h_S_ : 0 < S_.numel
  bcast_S_S64x144 : S_.BroadcastsInDim S64x144 (![] : Fin 0 → Fin S64x144.rank)
  reducesTo_S64x144_S_d0_1 : S64x144.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x16x32x32 .f32) (main_arg1 : FVec F S64x144 .f32) (main_arg2 : FVec F S64 .f32) : IVec S_ 1 :=
  let main_v0 : FVec F S8x16x32x32 .f32 := Host.absf main_arg0
  let main_cst : FVec F S_ .f32 := constant S_ .f32 0x7F800000#32
  let main_v1 : FVec F S8x16x32x32 .f32 := broadcastInDim S8x16x32x32 ![] bcast_S_S8x16x32x32 main_cst
  let main_v2 : IVec S8x16x32x32 1 := cmpf .olt main_v0 main_v1
  let main_c : IVec S_ 1 := constantI S_ 1 1#1
  let main_v3 : IVec S_ 1 := (fun x v => Host.reduce IntOp.andi x v reducesTo_S8x16x32x32_S_d0_1_2_3 h_S_) main_v2 main_c
  let main_v4 : FVec F S64x144 .f32 := Host.absf main_arg1
  let main_cst_0 : FVec F S_ .f32 := constant S_ .f32 0x7F800000#32
  let main_v5 : FVec F S64x144 .f32 := broadcastInDim S64x144 ![] bcast_S_S64x144 main_cst_0
  let main_v6 : IVec S64x144 1 := cmpf .olt main_v4 main_v5
  let main_c_1 : IVec S_ 1 := constantI S_ 1 1#1
  let main_v7 : IVec S_ 1 := (fun x v => Host.reduce IntOp.andi x v reducesTo_S64x144_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S64x1 : Shape := ⟨2, ![64, 1]⟩
abbrev S8x64x1024 : Shape := ⟨3, ![8, 64, 1024]⟩
abbrev S1x144x256 : Shape := ⟨3, ![1, 144, 256]⟩
abbrev S1x64x256 : Shape := ⟨3, ![1, 64, 256]⟩
abbrev S144x256 : Shape := ⟨2, ![144, 256]⟩
abbrev S64x144x1 : Shape := ⟨3, ![64, 144, 1]⟩
abbrev S64x144x256 : Shape := ⟨3, ![64, 144, 256]⟩
abbrev S64x256 : Shape := ⟨2, ![64, 256]⟩
abbrev S8x64x32x32 : Shape := ⟨4, ![8, 64, 32, 32]⟩

abbrev nBuf : Space → Nat
  | .hbm => 29
  | .vmem => 6
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S8x16x34x34, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x1x32x32, .f32⟩
  | .hbm, ⟨24, _⟩ => ⟨S8x16x9x32x32, .f32⟩
  | .hbm, ⟨25, _⟩ => ⟨S8x144x1024, .f32⟩
  | .hbm, ⟨26, _⟩ => ⟨S64x1, .f32⟩
  | .hbm, ⟨27, _⟩ => ⟨S8x64x1024, .f32⟩
  | .hbm, ⟨28, _⟩ => ⟨S8x64x32x32, .f32⟩
  | .local _ .vmem, ⟨0, _⟩ => ⟨S1x144x256, .f32⟩
  | .local _ .vmem, ⟨1, _⟩ => ⟨S1x144x256, .f32⟩
  | .local _ .vmem, ⟨2, _⟩ => ⟨S64x144, .f32⟩
  | .local _ .vmem, ⟨3, _⟩ => ⟨S64x1, .f32⟩
  | .local _ .vmem, ⟨4, _⟩ => ⟨S1x64x256, .f32⟩
  | .local _ .vmem, ⟨5, _⟩ => ⟨S1x64x256, .f32⟩
  | _, _ => ⟨S8x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x144x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  shapeCasts_S64_S64x1 : S64.ShapeCasts S64x1
  inb_S1x144x256_S1x144x256_0_0_0 : ∀ a, (![0, 0, 0] : Fin 3 → Nat) a + S1x144x256.size a ≤ S1x144x256.size a
  h_S1x144x256 : 0 < S1x144x256.numel
  shapeCasts_S1x144x256_S144x256 : S1x144x256.ShapeCasts S144x256
  inb_S64x144_S64x144_0_0 : ∀ a, (![0, 0] : Fin 2 → Nat) a + S64x144.size a ≤ S64x144.size a
  h_S64x144 : 0 < S64x144.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x144_S64x144x1 : S64x144.ShapeCasts S64x144x1
  shapeCasts_S144x256_S1x144x256 : S144x256.ShapeCasts S1x144x256
  broadcasts_S64x144x1_S64x144x256 : S64x144x1.Broadcasts S64x144x256
  broadcasts_S1x144x256_S64x144x256 : S1x144x256.Broadcasts S64x144x256
  reduces_S64x144x256_S64x256 : S64x144x256.Reduces [1] S64x256
  broadcasts_S64x1_S64x256 : S64x1.Broadcasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  shapeCasts_S8x64x1024_S8x64x32x32 : S8x64x1024.ShapeCasts S8x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x144x256.size a ≤ S8x144x1024.size a
  hwx0_0 : ∀ i : grid0.Coords, EltTy.bits .f32 = 32 ∨ (Rect.block (s := S8x144x1024) S1x144x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x144.size a ≤ S64x144.size a
  hwx0_1 : ∀ i : grid0.Coords, EltTy.bits .f32 = 32 ∨ (Rect.block (s := S64x144) S64x144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S8x64x1024.size a
  hwx0_3 : ∀ i : grid0.Coords, EltTy.bits .f32 = 32 ∨ (Rect.block (s := S8x64x1024) S1x64x256.size (cc0_transform_3 i) (hinb0_3 i)).WholeWords (EltTy.packing .f32)

variable [Facts₀]

abbrev win0_0 : Pipeline.Window sig grid0 :=
  Pipeline.Window.ofSpec (Memref.whole main_v20) S1x144x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x32x32 : Shape := ⟨4, ![8, 16, 32, 32]⟩
abbrev S64x144 : Shape := ⟨2, ![64, 144]⟩
abbrev S64 : Shape := ⟨1, ![64]⟩
abbrev S_ : Shape := ⟨0, ![]⟩
abbrev S8x16x34x34 : Shape := ⟨4, ![8, 16, 34, 34]⟩
abbrev S8x16x1x32x32 : Shape := ⟨5, ![8, 16, 1, 32, 32]⟩
abbrev S8x16x9x32x32 : Shape := ⟨5, ![8, 16, 9, 32, 32]⟩
abbrev S8x144x1024 : Shape := ⟨3, ![8, 144, 1024]⟩
abbrev S8x1x144x1024 : Shape := ⟨4, ![8, 1, 144, 1024]⟩
abbrev S1x64x144x1 : Shape := ⟨4, ![1, 64, 144, 1]⟩
abbrev S8x64x144x1024 : Shape := ⟨4, ![8, 64, 144, 1024]⟩
abbrev S8x64x1024 : Shape := ⟨3, ![8, 64, 1024]⟩
abbrev S1x64x1 : Shape := ⟨3, ![1, 64, 1]⟩
abbrev S8x64x32x32 : Shape := ⟨4, ![8, 64, 32, 32]⟩

abbrev nBuf : Space → Nat
  | .hbm => 38
  | .vmem => 0
  | .smem => 0
  | _ => 0

abbrev bufTy : (tb : Table) → Fin (tcTables nBuf tb) → BufTy
  | .hbm, ⟨0, _⟩ => ⟨S8x16x32x32, .f32⟩
  | .hbm, ⟨1, _⟩ => ⟨S64x144, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S8x16x34x34, .f32⟩
  | .hbm, ⟨6, _⟩ => ⟨S8x16x32x32, .f32⟩
  | .hbm, ⟨7, _⟩ => ⟨S8x16x32x32, .f32⟩
  | .hbm, ⟨8, _⟩ => ⟨S8x16x32x32, .f32⟩
  | .hbm, ⟨9, _⟩ => ⟨S8x16x32x32, .f32⟩
  | .hbm, ⟨10, _⟩ => ⟨S8x16x32x32, .f32⟩
  | .hbm, ⟨11, _⟩ => ⟨S8x16x32x32, .f32⟩
  | .hbm, ⟨12, _⟩ => ⟨S8x16x32x32, .f32⟩
  | .hbm, ⟨13, _⟩ => ⟨S8x16x32x32, .f32⟩
  | .hbm, ⟨14, _⟩ => ⟨S8x16x32x32, .f32⟩
  | .hbm, ⟨15, _⟩ => ⟨S8x16x1x32x32, .f32⟩
  | .hbm, ⟨16, _⟩ => ⟨S8x16x1x32x32, .f32⟩
  | .hbm, ⟨17, _⟩ => ⟨S8x16x1x32x32, .f32⟩
  | .hbm, ⟨18, _⟩ => ⟨S8x16x1x32x32, .f32⟩
  | .hbm, ⟨19, _⟩ => ⟨S8x16x1x32x32, .f32⟩
  | .hbm, ⟨20, _⟩ => ⟨S8x16x1x32x32, .f32⟩
  | .hbm, ⟨21, _⟩ => ⟨S8x16x1x32x32, .f32⟩
  | .hbm, ⟨22, _⟩ => ⟨S8x16x1x32x32, .f32⟩
  | .hbm, ⟨23, _⟩ => ⟨S8x16x1x32x32, .f32⟩
  | .hbm, ⟨24, _⟩ => ⟨S8x16x9x32x32, .f32⟩
  | .hbm, ⟨25, _⟩ => ⟨S8x144x1024, .f32⟩
  | .hbm, ⟨26, _⟩ => ⟨S8x1x144x1024, .f32⟩
  | .hbm, ⟨27, _⟩ => ⟨S1x64x144x1, .f32⟩
  | .hbm, ⟨28, _⟩ => ⟨S8x64x144x1024, .f32⟩
  | .hbm, ⟨29, _⟩ => ⟨S8x64x144x1024, .f32⟩
  | .hbm, ⟨30, _⟩ => ⟨S8x64x144x1024, .f32⟩
  | .hbm, ⟨31, _⟩ => ⟨S8x64x144x1024, .f32⟩
  | .hbm, ⟨32, _⟩ => ⟨S_, .f32⟩
  | .hbm, ⟨33, _⟩ => ⟨S8x64x1024, .f32⟩
  | .hbm, ⟨34, _⟩ => ⟨S1x64x1, .f32⟩
  | .hbm, ⟨35, _⟩ => ⟨S8x64x1024, .f32⟩
  | .hbm, ⟨36, _⟩ => ⟨S8x64x1024, .f32⟩
  | .hbm, ⟨37, _⟩ => ⟨S8x64x32x32, .f32⟩
  | _, _ => ⟨S8x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]

class Facts₀ : Prop where
  pads_S8x16x32x32_S8x16x34x34_000_000_110_110 : S8x16x32x32.Pads (![0, 0, 1, 1] : Fin 4 → Nat) ![0, 0, 1, 1] ![0, 0, 0, 0] S8x16x34x34
  h_S_ : 0 < S_.numel
  slices_S8x16x34x34_S8x16x32x32_0_0_0_0 : S8x16x34x34.Slices ![0, 0, 0, 0] S8x16x32x32
  slices_S8x16x34x34_S8x16x32x32_0_0_0_1 : S8x16x34x34.Slices ![0, 0, 0, 1] S8x16x32x32
  slices_S8x16x34x34_S8x16x32x32_0_0_0_2 : S8x16x34x34.Slices ![0, 0, 0, 2] S8x16x32x32
  slices_S8x16x34x34_S8x16x32x32_0_0_1_0 : S8x16x34x34.Slices ![0, 0, 1, 0] S8x16x32x32
  slices_S8x16x34x34_S8x16x32x32_0_0_1_1 : S8x16x34x34.Slices ![0, 0, 1, 1] S8x16x32x32
  slices_S8x16x34x34_S8x16x32x32_0_0_1_2 : S8x16x34x34.Slices ![0, 0, 1, 2] S8x16x32x32
  slices_S8x16x34x34_S8x16x32x32_0_0_2_0 : S8x16x34x34.Slices ![0, 0, 2, 0] S8x16x32x32
  slices_S8x16x34x34_S8x16x32x32_0_0_2_1 : S8x16x34x34.Slices ![0, 0, 2, 1] S8x16x32x32
  slices_S8x16x34x34_S8x16x32x32_0_0_2_2 : S8x16x34x34.Slices ![0, 0, 2, 2] S8x16x32x32
  bcast_S8x16x32x32_S8x16x1x32x32_0_1_3_4 : S8x16x32x32.BroadcastsInDim S8x16x1x32x32 (![0, 1, 3, 4] : Fin 4 → Fin S8x16x1x32x32.rank)
  concatenates_S8x16x1x32x32_S8x16x1x32x32_S8x16x1x32x32_S8x16x1x32x32_S8x16x1x32x32_S8x16x1x32x32_S8x16x1x32x32_S8x16x1x32x32_S8x16x1x32x32_S8x16x9x32x32_d2 : Shape.Concatenates [S8x16x1x32x32, S8x16x1x32x32, S8x16x1x32x32, S8x16x1x32x32, S8x16x1x32x32, S8x16x1x32x32, S8x16x1x32x32, S8x16x1x32x32, S8x16x1x32x32] S8x16x9x32x32 2
  shapeCasts_S8x16x9x32x32_S8x144x1024 : S8x16x9x32x32.ShapeCasts S8x144x1024
  bcast_S8x144x1024_S8x1x144x1024_0_2_3 : S8x144x1024.BroadcastsInDim S8x1x144x1024 (![0, 2, 3] : Fin 3 → Fin S8x1x144x1024.rank)
  bcast_S64x144_S1x64x144x1_1_2 : S64x144.BroadcastsInDim S1x64x144x1 (![1, 2] : Fin 2 → Fin S1x64x144x1.rank)
  bcast_S8x1x144x1024_S8x64x144x1024_0_1_2_3 : S8x1x144x1024.BroadcastsInDim S8x64x144x1024 (![0, 1, 2, 3] : Fin 4 → Fin S8x64x144x1024.rank)
  bcast_S1x64x144x1_S8x64x144x1024_0_1_2_3 : S1x64x144x1.BroadcastsInDim S8x64x144x1024 (![0, 1, 2, 3] : Fin 4 → Fin S8x64x144x1024.rank)
  reducesTo_S8x64x144x1024_S8x64x1024_d2 : S8x64x144x1024.ReducesTo [2] S8x64x1024
  bcast_S64_S1x64x1_1 : S64.BroadcastsInDim S1x64x1 (![1] : Fin 1 → Fin S1x64x1.rank)
  bcast_S1x64x1_S8x64x1024_0_1_2 : S1x64x1.BroadcastsInDim S8x64x1024 (![0, 1, 2] : Fin 3 → Fin S8x64x1024.rank)
  shapeCasts_S8x64x1024_S8x64x32x32 : S8x64x1024.ShapeCasts S8x64x32x32

variable [Facts₀]

class Facts : Prop extends Facts₀ where

variable [Facts]
-- ==== Proof.BitsFrame.lean ====
import proofs.«116493_j944892805269_1_alg».proof.Proof.Gen.Kernel.Launch
import proofs.«116493_j944892805269_1_alg».proof.Proof.Gen.Kernel.Skeleton
import proofs.«116493_j944892805269_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The L∞-distance kernel's program runs to its end, faults nowhere and leaves its three arguments as launched.

  @main is three stretches of host operations (a zero, the zero-padding of the image by one pixel on each side of its
  two spatial axes, the nine one-pixel shifts of the padded image stacked along a new axis and laid out as a matrix of
  patch columns; the bias as a column), ONE kernel region on an 8 × 4 grid, and one reshape of the region's result.
  At grid point (n, l) the region hands the body image n's columns 256·l … 256·l + 255 (all 144 patch rows), the whole
  weight matrix and the whole bias column, and writes back one 64 × 256 block of distances. The body reads its four
  blocks whole and stores once, over the whole output block: what a point leaves there is a function of the three
  input blocks alone (the payload the skeleton names), and nothing is carried from one point to the next. -/

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One point of the grid -/

/-- The offsets of a whole-block access are all zero. -/
theorem zero3 : (![0, 0, 0] : Fin 3 → Nat) = fun _ => 0 := by
  funext a; fin_cases a <;> rfl
theorem zero2 : (![0, 0] : Fin 2 → Nat) = fun _ => 0 := by
  funext a; fin_cases a <;> rfl

set_option maxHeartbeats 1000000 in
/-- The body on four whole staging buffers, the three inputs' at contents `xc` (patch columns), `xw` (weights), `xb`
    (bias column) and the output's at anything: it runs to its end, leaves the inputs as they were and the output block
    at the payload of the three — every load reads a whole block, and the one store covers the whole output block, so
    what the output held before (which the body also loads, and never uses) is gone. -/
theorem point_triple (c : Dev nD) (E : Set ℕ) (i : grid0.Coords)
    (colsRef : Memref sig .tc .vmem S1x144x256 .f32) (hcols : colsRef.IsWhole)
    (wRef : Memref sig .tc .vmem S64x144 .f32) (hw : wRef.IsWhole)
    (bRef : Memref sig .tc .vmem S64x1 .f32) (hb : bRef.IsWhole)
    (oRef : Memref sig .tc .vmem S1x64x256 .f32) (ho : oRef.IsWhole)
    (xc : Vec F S1x144x256 .f32) (xw : Vec F S64x144 .f32) (xb : Vec F S64x1 .f32) (K : PUnit → sProp 𝕄) :
    iprop(owns (c : Thread nD τ) colsRef fullShare xc ∗ owns (c : Thread nD τ) wRef fullShare xw
        ∗ owns (c : Thread nD τ) bRef fullShare xb ∗ (∃ d, owns (c : Thread nD τ) oRef fullShare d)
        ∗ (iprop(owns (c : Thread nD τ) colsRef fullShare xc ∗ owns (c : Thread nD τ) wRef fullShare xw
            ∗ owns (c : Thread nD τ) bRef fullShare xb ∗ owns (c : Thread nD τ) oRef fullShare (k0_pay1 xc xw xb)) -∗ K ⟨⟩))
      ⊢ wp frame (wpE (defs₀ (F := F)) Variants.none c none) E (cc0__dist_kernel i colsRef hcols wRef hw bRef hb oRef ho) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (View.cover_of_tiled _ S1x64x256.size (by rfl))).trans ?_
  rw [View.canon_unit_zero zero3]
  simp only [View.readAt_eq_ld, View.ld_unit_zero (S := S1x144x256) zero3, View.ld_unit_zero (S := S64x144) zero2,
    View.ld_unit_zero (S := S64x1) zero2]

variable (m : (ℓ : Loc nD τ sig) → Buf (Elt F) ℓ) (ρ : Dev nD → PrngReg)

/-! ## What the region finds, and @main around it -/

/-- Core `c`'s buffers when the region is entered: the launch memory after the three host stretches. -/
abbrev entry (c : Dev nD) : Valuation τ sig (Elt F) :=
  StableHlo.after (List.flatten [hostOps0, hostOps0_1, hostOps0_2]) (fun b => m (c, b))
/-- The same, read at a TensorCore buffer. -/
abbrev atEntry (c : Dev nD) (b : Ref sig .tc) : Buf (Elt F) ((c : Thread nD τ).loc b) := entry m c (Proc.devRef .tc b)

/-- No host operation allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the three host stretches, the region, and the closing reshape: run from the launch memory it reaches the
    region at `atEntry` and goes on with the reshape. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨fresh0, fresh0_1, fresh0_2⟩) main_chain

/-- The closing reshape touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp fresh1) op hop
/-- and writes its own result only, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v22 main_v23 rfl shapeCasts_S8x64x1024_S8x64x32x32 := by simpa [hostOps1] using hop
  intro w
  fin_cases w <;> simp only [StableHlo.reshape_writes, Finset.mem_singleton] <;> exact StableHlo.devRef_ne_of_ne (by decide)

/-- A buffer no host operation before the region writes is found as launched. Each operation writes its own result. -/
theorem entry_of_unwritten (c : Dev nD) (b : Ref sig .tc)
    (hb : b ∉ ([main_c, main_call0_v0, main_v0, main_v1, main_v2, main_v3, main_v4, main_v5, main_v6, main_v7, main_v8, main_v9,
      main_v10, main_v11, main_v12, main_v13, main_v14, main_v15, main_v16, main_v17, main_v18, main_v19, main_v20, main_v21] : List (Ref sig .tc))) :
    atEntry m c b = m ((c : Thread nD τ).loc b) := by
  simp only [List.mem_cons, List.mem_nil_iff, not_or, or_false] at hb
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by tauto)

/-- The three arguments are written by no host operation: the region finds them as launched. -/
theorem entry_image (c : Dev nD) : atEntry m c main_arg0 = m ((c : Thread nD τ).loc main_arg0) :=
  entry_of_unwritten m c main_arg0 (by decide)
theorem entry_weight (c : Dev nD) : atEntry m c main_arg1 = m ((c : Thread nD τ).loc main_arg1) :=
  entry_of_unwritten m c main_arg1 (by decide)
theorem entry_bias (c : Dev nD) : atEntry m c main_arg2 = m ((c : Thread nD τ).loc main_arg2) :=
  entry_of_unwritten m c main_arg2 (by decide)

/-! ## The region's proof data -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The distances a point leaves in the output block: the payload of the point's three input blocks. -/
def distAt (c : Dev nD) (t : Fin cfg0.N) : Vec F S1x64x256 .f32 :=
  k0_pay1 (blockAt m c 0 t) (blockAt m c 1 t) (blockAt m c 2 t)

/-- The arrays as the region finds them; after the body at a point each input's staging buffer still at its block, the
    output's at the point's distances; the body uses nothing else of the core; full shares, nothing owed. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => distAt m c t
  Φ _ := Pipeline.ΦA spec0 c
  q _ := fullShare
  owed _ := 0

theorem data_A (c : Dev nD) (w : Fin cfg0.W) : (data m 0 c).A w = atEntry m c (Pipeline.arrRef spec0 w) := by
  dsimp only [data]
theorem after_cols (c : Dev nD) (t : Fin cfg0.N) : (data m 0 c).after 0 t = blockAt m c 0 t := by dsimp only [data]
theorem after_weight (c : Dev nD) (t : Fin cfg0.N) : (data m 0 c).after 1 t = blockAt m c 1 t := by dsimp only [data]
theorem after_bias (c : Dev nD) (t : Fin cfg0.N) : (data m 0 c).after 2 t = blockAt m c 2 t := by dsimp only [data]
theorem after_dist (c : Dev nD) (t : Fin cfg0.N) : (data m 0 c).after 3 t = distAt m c t := by dsimp only [data]

/-- An input's current staging buffer holds its block at every point: fetched there, or (the weights and the bias after
    the first point) left in place since the last fetch, the block index not having moved. -/
theorem holds_cols (c : Dev nD) (t : Fin cfg0.N) (d) : (data m 0 c).before 0 t d = blockAt m c 0 t :=
  ((data m 0 c).before_in_eq_fetched 0 rfl (fun _ => rfl) (fun _ _ _ => rfl)
    (fun t => by rw [after_cols]; unfold Dat.blockOf blockAt; rw [data_A]) t d).trans
    (by unfold Dat.fetched Dat.blockOf blockAt; rw [data_A]; rfl)
theorem holds_weight (c : Dev nD) (t : Fin cfg0.N) (d) : (data m 0 c).before 1 t d = blockAt m c 1 t :=
  ((data m 0 c).before_in_eq_fetched 1 rfl (fun _ => rfl) (fun _ _ _ => rfl)
    (fun t => by rw [after_weight]; unfold Dat.blockOf blockAt; rw [data_A]) t d).trans
    (by unfold Dat.fetched Dat.blockOf blockAt; rw [data_A]; rfl)
theorem holds_bias (c : Dev nD) (t : Fin cfg0.N) (d) : (data m 0 c).before 2 t d = blockAt m c 2 t :=
  ((data m 0 c).before_in_eq_fetched 2 rfl (fun _ => rfl) (fun _ _ _ => rfl)
    (fun t => by rw [after_bias]; unfold Dat.blockOf blockAt; rw [data_A]) t d).trans
    (by unfold Dat.fetched Dat.blockOf blockAt; rw [data_A]; rfl)

/-! ## The body at every point -/

/-- What the body is called with at point `t`, the four windows one by one, -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it hands back. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- The body at any point: the inputs' buffers hold their blocks, so the point's triple applies; the rest of the core
    passes through untouched. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [holds_cols, holds_weight, holds_bias]
  rw [show (data m 0 c).Φ t.succ = (data m 0 c).Φ t.castSucc from rfl,
    show (data m 0 c).owesAt () t.succ = (data m 0 c).owesAt () t.castSucc from rfl,
    after_cols, after_weight, after_bias, after_dist]
  iintro ⟨HΦ, Ho, ⟨%d0, H0⟩, ⟨%d1, H1⟩, ⟨%d2, H2⟩, ⟨%d3, H3⟩⟩
  iapply (point_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (data (F := F) m 0 c) (defs₀ (F := F)) Variants.none () Set.univ := fun t => by
  rw [bigSep_W0, bigSep_W0]
  exact point_run m c t

/-! ## The run -/

/-- What core `c`'s buffers hold at the end: the closing reshape applied to the region's exit contents. -/
abbrev atEnd (c : Dev nD) (b : Ref sig .tc) : Buf (Elt F) ((c : Thread nD τ).loc b) :=
  Pipeline.afterTail₀ cfgs (data m) 0 (entry m) [hostOps1] c b

set_option backward.isDefEq.respectTransparency.types false in
/-- From any launch memory with zero counters every weakly fair execution of @main terminates without a fault, the
    region's four arrays ending at what the write-backs leave and every other buffer at `atEnd`. -/
theorem run_main : θ_run defs (onTc (τ := τ) (main (F := F))) (s₀ m ρ)
    (Pipeline.FramePost cfgs (data m) 0 (Pipeline.afterTail₀ cfgs (data m) 0 (entry m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := [hostOps1]) (hsub := tail_sub) (hfresh := tail_fresh) (hkeep := tail_keeps)
    (hmain := main_around m Variants.none) (hA := data_A m) (hΦ := fun _ _ => rfl)

/-- A buffer that is none of the region's arrays and is not the closing reshape's result ends as the region found it. -/
theorem atEnd_of_bypass (c : Dev nD) (b : Ref sig .tc) (hr : b ≠ main_v23) (ha : ∀ w, Pipeline.arrRef spec0 w ≠ b) :
    atEnd m c b = atEntry m c b := by
  unfold atEnd Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hr)),
    Pipeline.withArrays_of_ne _ c (entry m c) _ b ha]

/-- In a final state of that run the image, the weights and the bias are as launched — the weights as an input array
    of the region, the other two as buffers the region and the reshape pass by. -/
theorem args_kept {r : PUnit × MemSt nD τ sig (Elt F)}
    (h : Pipeline.FramePost cfgs (data m) 0 (Pipeline.afterTail₀ cfgs (data m) 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans
      ((atEnd_of_bypass m c main_arg0 (by decide) (by decide)).trans (entry_image m c)),
    ((h c).1 1).trans (((data m 0 c).arrAt_in 1 rfl _).trans ((data_A m c 1).trans (entry_weight m c))),
    ((h c).2 main_arg2 (Pipeline.mem_restRefs_of main_arg2 (by decide) (by decide))).trans
      ((atEnd_of_bypass m c main_arg2 (by decide) (by decide)).trans (entry_bias m c))⟩

/-- THE FRAME: the program runs to its end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => args_kept m h c) (run_main m ρ)

end Cert.Kernel.Dist

end
-- ==== Proof.IdealFrame.lean ====
import proofs.«116493_j944892805269_1_alg».proof.Proof.Gen.KernelIdeal.Launch
import proofs.«116493_j944892805269_1_alg».proof.Proof.Gen.KernelIdeal.Skeleton
import proofs.«116493_j944892805269_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The L∞-distance kernel's program runs to its end, faults nowhere and leaves its three arguments as launched.

  @main is three stretches of host operations (a zero, the zero-padding of the image by one pixel on each side of its
  two spatial axes, the nine one-pixel shifts of the padded image stacked along a new axis and laid out as a matrix of
  patch columns; the bias as a column), ONE kernel region on an 8 × 4 grid, and one reshape of the region's result.
  At grid point (n, l) the region hands the body image n's columns 256·l … 256·l + 255 (all 144 patch rows), the whole
  weight matrix and the whole bias column, and writes back one 64 × 256 block of distances. The body reads its four
  blocks whole and stores once, over the whole output block: what a point leaves there is a function of the three
  input blocks alone (the payload the skeleton names), and nothing is carried from one point to the next. -/

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One point of the grid -/

/-- The offsets of a whole-block access are all zero. -/
theorem zero3 : (![0, 0, 0] : Fin 3 → Nat) = fun _ => 0 := by
  funext a; fin_cases a <;> rfl
theorem zero2 : (![0, 0] : Fin 2 → Nat) = fun _ => 0 := by
  funext a; fin_cases a <;> rfl

set_option maxHeartbeats 1000000 in
/-- The body on four whole staging buffers, the three inputs' at contents `xc` (patch columns), `xw` (weights), `xb`
    (bias column) and the output's at anything: it runs to its end, leaves the inputs as they were and the output block
    at the payload of the three — every load reads a whole block, and the one store covers the whole output block, so
    what the output held before (which the body also loads, and never uses) is gone. -/
theorem point_triple (c : Dev nD) (E : Set ℕ) (i : grid0.Coords)
    (colsRef : Memref sig .tc .vmem S1x144x256 .f32) (hcols : colsRef.IsWhole)
    (wRef : Memref sig .tc .vmem S64x144 .f32) (hw : wRef.IsWhole)
    (bRef : Memref sig .tc .vmem S64x1 .f32) (hb : bRef.IsWhole)
    (oRef : Memref sig .tc .vmem S1x64x256 .f32) (ho : oRef.IsWhole)
    (xc : Vec F S1x144x256 .f32) (xw : Vec F S64x144 .f32) (xb : Vec F S64x1 .f32) (K : PUnit → sProp 𝕄) :
    iprop(owns (c : Thread nD τ) colsRef fullShare xc ∗ owns (c : Thread nD τ) wRef fullShare xw
        ∗ owns (c : Thread nD τ) bRef fullShare xb ∗ (∃ d, owns (c : Thread nD τ) oRef fullShare d)
        ∗ (iprop(owns (c : Thread nD τ) colsRef fullShare xc ∗ owns (c : Thread nD τ) wRef fullShare xw
            ∗ owns (c : Thread nD τ) bRef fullShare xb ∗ owns (c : Thread nD τ) oRef fullShare (k0_pay1 xc xw xb)) -∗ K ⟨⟩))
      ⊢ wp frame (wpE (defs₀ (F := F)) Variants.none c none) E (cc0__dist_kernel i colsRef hcols wRef hw bRef hb oRef ho) K := by
  simp only [cc0__dist_kernel_eq_skeleton]; unfold cc0__dist_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (View.cover_of_tiled _ S1x64x256.size (by rfl))).trans ?_
  rw [View.canon_unit_zero zero3]
  simp only [View.readAt_eq_ld, View.ld_unit_zero (S := S1x144x256) zero3, View.ld_unit_zero (S := S64x144) zero2,
    View.ld_unit_zero (S := S64x1) zero2]

variable (m : (ℓ : Loc nD τ sig) → Buf (Elt F) ℓ) (ρ : Dev nD → PrngReg)

/-! ## What the region finds, and @main around it -/

/-- Core `c`'s buffers when the region is entered: the launch memory after the three host stretches. -/
abbrev entry (c : Dev nD) : Valuation τ sig (Elt F) :=
  StableHlo.after (List.flatten [hostOps0, hostOps0_1, hostOps0_2]) (fun b => m (c, b))
/-- The same, read at a TensorCore buffer. -/
abbrev atEntry (c : Dev nD) (b : Ref sig .tc) : Buf (Elt F) ((c : Thread nD τ).loc b) := entry m c (Proc.devRef .tc b)

/-- No host operation allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the three host stretches, the region, and the closing reshape: run from the launch memory it reaches the
    region at `atEntry` and goes on with the reshape. -/
theorem main_around (𝒱₀ : Variants) :
    Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨fresh0, fresh0_1, fresh0_2⟩) main_chain

/-- The closing reshape touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp fresh1) op hop
/-- and writes its own result only, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v22 main_v23 rfl shapeCasts_S8x64x1024_S8x64x32x32 := by simpa [hostOps1] using hop
  intro w
  fin_cases w <;> simp only [StableHlo.reshape_writes, Finset.mem_singleton] <;> exact StableHlo.devRef_ne_of_ne (by decide)

/-- A buffer no host operation before the region writes is found as launched. Each operation writes its own result. -/
theorem entry_of_unwritten (c : Dev nD) (b : Ref sig .tc)
    (hb : b ∉ ([main_c, main_call0_v0, main_v0, main_v1, main_v2, main_v3, main_v4, main_v5, main_v6, main_v7, main_v8, main_v9,
      main_v10, main_v11, main_v12, main_v13, main_v14, main_v15, main_v16, main_v17, main_v18, main_v19, main_v20, main_v21] : List (Ref sig .tc))) :
    atEntry m c b = m ((c : Thread nD τ).loc b) := by
  simp only [List.mem_cons, List.mem_nil_iff, not_or, or_false] at hb
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.mem_singleton]
  repeat' apply And.intro
  all_goals exact StableHlo.devRef_ne_of_ne (by tauto)

/-- The three arguments are written by no host operation: the region finds them as launched. -/
theorem entry_image (c : Dev nD) : atEntry m c main_arg0 = m ((c : Thread nD τ).loc main_arg0) :=
  entry_of_unwritten m c main_arg0 (by decide)
theorem entry_weight (c : Dev nD) : atEntry m c main_arg1 = m ((c : Thread nD τ).loc main_arg1) :=
  entry_of_unwritten m c main_arg1 (by decide)
theorem entry_bias (c : Dev nD) : atEntry m c main_arg2 = m ((c : Thread nD τ).loc main_arg2) :=
  entry_of_unwritten m c main_arg2 (by decide)

/-! ## The region's proof data -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The distances a point leaves in the output block: the payload of the point's three input blocks. -/
def distAt (c : Dev nD) (t : Fin cfg0.N) : Vec F S1x64x256 .f32 :=
  k0_pay1 (blockAt m c 0 t) (blockAt m c 1 t) (blockAt m c 2 t)

/-- The arrays as the region finds them; after the body at a point each input's staging buffer still at its block, the
    output's at the point's distances; the body uses nothing else of the core; full shares, nothing owed. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => distAt m c t
  Φ _ := Pipeline.ΦA spec0 c
  q _ := fullShare
  owed _ := 0

theorem data_A (c : Dev nD) (w : Fin cfg0.W) : (data m 0 c).A w = atEntry m c (Pipeline.arrRef spec0 w) := by
  dsimp only [data]
theorem after_cols (c : Dev nD) (t : Fin cfg0.N) : (data m 0 c).after 0 t = blockAt m c 0 t := by dsimp only [data]
theorem after_weight (c : Dev nD) (t : Fin cfg0.N) : (data m 0 c).after 1 t = blockAt m c 1 t := by dsimp only [data]
theorem after_bias (c : Dev nD) (t : Fin cfg0.N) : (data m 0 c).after 2 t = blockAt m c 2 t := by dsimp only [data]
theorem after_dist (c : Dev nD) (t : Fin cfg0.N) : (data m 0 c).after 3 t = distAt m c t := by dsimp only [data]

/-- An input's current staging buffer holds its block at every point: fetched there, or (the weights and the bias after
    the first point) left in place since the last fetch, the block index not having moved. -/
theorem holds_cols (c : Dev nD) (t : Fin cfg0.N) (d) : (data m 0 c).before 0 t d = blockAt m c 0 t :=
  ((data m 0 c).before_in_eq_fetched 0 rfl (fun _ => rfl) (fun _ _ _ => rfl)
    (fun t => by rw [after_cols]; unfold Dat.blockOf blockAt; rw [data_A]) t d).trans
    (by unfold Dat.fetched Dat.blockOf blockAt; rw [data_A]; rfl)
theorem holds_weight (c : Dev nD) (t : Fin cfg0.N) (d) : (data m 0 c).before 1 t d = blockAt m c 1 t :=
  ((data m 0 c).before_in_eq_fetched 1 rfl (fun _ => rfl) (fun _ _ _ => rfl)
    (fun t => by rw [after_weight]; unfold Dat.blockOf blockAt; rw [data_A]) t d).trans
    (by unfold Dat.fetched Dat.blockOf blockAt; rw [data_A]; rfl)
theorem holds_bias (c : Dev nD) (t : Fin cfg0.N) (d) : (data m 0 c).before 2 t d = blockAt m c 2 t :=
  ((data m 0 c).before_in_eq_fetched 2 rfl (fun _ => rfl) (fun _ _ _ => rfl)
    (fun t => by rw [after_bias]; unfold Dat.blockOf blockAt; rw [data_A]) t d).trans
    (by unfold Dat.fetched Dat.blockOf blockAt; rw [data_A]; rfl)

/-! ## The body at every point -/

/-- What the body is called with at point `t`, the four windows one by one, -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it hands back. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- The body at any point: the inputs' buffers hold their blocks, so the point's triple applies; the rest of the core
    passes through untouched. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [holds_cols, holds_weight, holds_bias]
  rw [show (data m 0 c).Φ t.succ = (data m 0 c).Φ t.castSucc from rfl,
    show (data m 0 c).owesAt () t.succ = (data m 0 c).owesAt () t.castSucc from rfl,
    after_cols, after_weight, after_bias, after_dist]
  iintro ⟨HΦ, Ho, ⟨%d0, H0⟩, ⟨%d1, H1⟩, ⟨%d2, H2⟩, ⟨%d3, H3⟩⟩
  iapply (point_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (data (F := F) m 0 c) (defs₀ (F := F)) Variants.none () Set.univ := fun t => by
  rw [bigSep_W0, bigSep_W0]
  exact point_run m c t

/-! ## The run -/

/-- What core `c`'s buffers hold at the end: the closing reshape applied to the region's exit contents. -/
abbrev atEnd (c : Dev nD) (b : Ref sig .tc) : Buf (Elt F) ((c : Thread nD τ).loc b) :=
  Pipeline.afterTail₀ cfgs (data m) 0 (entry m) [hostOps1] c b

set_option backward.isDefEq.respectTransparency.types false in
/-- From any launch memory with zero counters every weakly fair execution of @main terminates without a fault, the
    region's four arrays ending at what the write-backs leave and every other buffer at `atEnd`. -/
theorem run_main : θ_run defs (onTc (τ := τ) (main (F := F))) (s₀ m ρ)
    (Pipeline.FramePost cfgs (data m) 0 (Pipeline.afterTail₀ cfgs (data m) 0 (entry m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := [hostOps1]) (hsub := tail_sub) (hfresh := tail_fresh) (hkeep := tail_keeps)
    (hmain := main_around m Variants.none) (hA := data_A m) (hΦ := fun _ _ => rfl)

/-- A buffer that is none of the region's arrays and is not the closing reshape's result ends as the region found it. -/
theorem atEnd_of_bypass (c : Dev nD) (b : Ref sig .tc) (hr : b ≠ main_v23) (ha : ∀ w, Pipeline.arrRef spec0 w ≠ b) :
    atEnd m c b = atEntry m c b := by
  unfold atEnd Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hr)),
    Pipeline.withArrays_of_ne _ c (entry m c) _ b ha]

/-- In a final state of that run the image, the weights and the bias are as launched — the weights as an input array
    of the region, the other two as buffers the region and the reshape pass by. -/
theorem args_kept {r : PUnit × MemSt nD τ sig (Elt F)}
    (h : Pipeline.FramePost cfgs (data m) 0 (Pipeline.afterTail₀ cfgs (data m) 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans
      ((atEnd_of_bypass m c main_arg0 (by decide) (by decide)).trans (entry_image m c)),
    ((h c).1 1).trans (((data m 0 c).arrAt_in 1 rfl _).trans ((data_A m c 1).trans (entry_weight m c))),
    ((h c).2 main_arg2 (Pipeline.mem_restRefs_of main_arg2 (by decide) (by decide))).trans
      ((atEnd_of_bypass m c main_arg2 (by decide) (by decide)).trans (entry_bias m c))⟩

/-- THE FRAME: the program runs to its end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => args_kept m h c) (run_main m ρ)

end Cert.KernelIdeal.Dist

end
-- ==== Proof.DistSpec.lean ====
import Idealize.ShloMosaic.PureOps.Ideal
import Idealize.ShloMosaic.PureOps.Ideal.Laws
import Idealize.ShloMosaic.Lib.ValueIdx

/-! The function both programs compute.

  From the matrix of patch columns `X` (image n, patch row f, pixel l), the weights `W` (output channel o, patch row f)
  and the bias `B`, the result at (n, o, l) is the largest gap between column (n, ·, l) and weight row o, over the 144
  patch rows, plus `B o`: a Chebyshev distance in place of a dot product. The gap of two extended reals is
  `max (a - b) (-(a - b))`, which is how an absolute value of a difference reads at the ideal values; it does not
  depend on the order of its two arguments, at infinite arguments either. -/

noncomputable section

namespace Cert.DistSpec

open Idealize.ShloMosaic Idealize.ShloMosaic.ValueIdx

/-- The absolute difference of two extended reals. -/
def gap (a b : EReal) : EReal := max (a - b) (-(a - b))

/-- The gap is symmetric. Between two reals `-(a - b) = b - a`; if either argument is infinite one of the two
    differences is `⊤` or its negation is, on both sides. -/
theorem gap_comm (a b : EReal) : gap a b = gap b a := by
  unfold gap
  induction a using EReal.rec <;> induction b using EReal.rec
  all_goals first
    | (rename_i x y; rw [← EReal.coe_sub, ← EReal.coe_sub, ← EReal.coe_neg, ← EReal.coe_neg, neg_sub, neg_sub, max_comm])
    | simp [sub_eq_add_neg]

/-- The distance at image `n`, output channel `o`, pixel `l`: the largest gap over the patch rows, from the value of the
    word the maximum starts from, plus the channel's bias. -/
def dist (X : (⟨3, ![8, 144, 1024]⟩ : Shape).Idx → EReal) (W : (⟨2, ![64, 144]⟩ : Shape).Idx → EReal)
    (B : (⟨1, ![64]⟩ : Shape).Idx → EReal) (n : Fin 8) (o : Fin 64) (l : Fin 1024) : EReal :=
  (Finset.univ : Finset (Fin 144)).fold max (Ideal.ofBits .f32 0xFF800000#32) (fun f => gap (X (ix3 n f l)) (W (ix2 o f)))
    + B (ix1 o)

/-- The same as an array over (n, o, l). -/
def distArr (X : (⟨3, ![8, 144, 1024]⟩ : Shape).Idx → EReal) (W : (⟨2, ![64, 144]⟩ : Shape).Idx → EReal)
    (B : (⟨1, ![64]⟩ : Shape).Idx → EReal) : (⟨3, ![8, 64, 1024]⟩ : Shape).Idx → EReal :=
  fun j => dist X W B (j 0) (j 1) (j 2)

theorem distArr_ix3 (X : (⟨3, ![8, 144, 1024]⟩ : Shape).Idx → EReal) (W : (⟨2, ![64, 144]⟩ : Shape).Idx → EReal)
    (B : (⟨1, ![64]⟩ : Shape).Idx → EReal) (n : Fin 8) (o : Fin 64) (l : Fin 1024) :
    distArr X W B (ix3 n o l) = dist X W B n o l := rfl

end Cert.DistSpec

end
-- ==== Proof.IdealPayload.lean ====
import proofs.«116493_j944892805269_1_alg».proof.Proof.Gen.KernelIdeal.Skeleton
import proofs.«116493_j944892805269_1_alg».proof.Proof.DistSpec
import Idealize.ShloMosaic.Lib.Pipeline.Value
import Idealize.ShloMosaic.Lib.ValueLayout
import Idealize.ShloMosaic.PureOps.Ideal.Laws

/-! What one grid point computes, entry by entry.

  From a block `xc` of patch columns (1 × 144 × 256), the weights `xw` (64 × 144) and the bias column `xb` (64 × 1) the
  body's stored value at (0, o, l) is the largest gap between weight row o and column l of the block, over the 144
  patch rows, plus `xb (o, 0)`: the weights are spread along the pixels and the columns along the output channels, the
  difference and its absolute value are taken entry by entry, and the maximum runs down the middle axis. -/

noncomputable section

namespace Cert.KernelIdeal.Dist

open Idealize.ShloMosaic Idealize.ShloMosaic.ValueIdx
open Cert.KernelIdeal Cert.KernelIdeal.Gen Cert.DistSpec

/-- Output entry (o, l) with patch row f put back on the reduced axis is (o, f, l). -/
theorem lift_row (o : Fin 64) (l : Fin 256) (f : Fin (S64x144x256.size 1)) :
    reduces_S64x144x256_S64x256.lift (ix2 o l) f = ix3 o (⟨f.val, f.isLt⟩ : Fin 144) l := by
  funext c; apply Fin.ext
  fin_cases c <;> rfl

/-- The weights spread along the pixels: entry (o, f, l) is weight (o, f). -/
theorem weights_spread (xw : Vec Ideal S64x144 .f32) (o : Fin 64) (f : Fin 144) (l : Fin 256) :
    broadcastTo S64x144x256 (shapeCast S64x144x1 xw shapeCasts_S64x144_S64x144x1) broadcasts_S64x144x1_S64x144x256 (ix3 o f l)
      = xw (ix2 o f) := by
  refine (broadcastTo_apply _ broadcasts_S64x144x1_S64x144x256 (ix3 o f l) (ix3 o f (0 : Fin 1)) (fun a => ?_)).trans ?_
  · match a with
    | ⟨0, _⟩ => show o.val = if (64 : Nat) = 1 then 0 else o.val; rw [if_neg (by decide)]
    | ⟨1, _⟩ => show f.val = if (144 : Nat) = 1 then 0 else f.val; rw [if_neg (by decide)]
    | ⟨2, _⟩ => show 0 = if (1 : Nat) = 1 then 0 else l.val; rw [if_pos rfl]
  · exact shapeCast_apply xw shapeCasts_S64x144_S64x144x1 (ix3 o f (0 : Fin 1)) (ix2 o f) (by
      rw [Shape.rowMajor_val_two, Shape.rowMajor_val_three]
      show o.val * 144 + f.val = (o.val * 144 + f.val) * 1 + 0
      omega)

/-- The block of columns spread along the output channels: entry (o, f, l) is column entry (0, f, l). The block's
    leading unit axis is dropped and put back, which changes nothing. -/
theorem columns_spread (xc : Vec Ideal S1x144x256 .f32) (o : Fin 64) (f : Fin 144) (l : Fin 256) :
    broadcastTo S64x144x256 (shapeCast S1x144x256 (shapeCast S144x256 xc shapeCasts_S1x144x256_S144x256) shapeCasts_S144x256_S1x144x256)
        broadcasts_S1x144x256_S64x144x256 (ix3 o f l)
      = xc (ix3 (0 : Fin 1) f l) := by
  rw [shapeCast_shapeCast]
  refine broadcastTo_apply _ broadcasts_S1x144x256_S64x144x256 (ix3 o f l) (ix3 (0 : Fin 1) f l) (fun a => ?_)
  match a with
  | ⟨0, _⟩ => show 0 = if (1 : Nat) = 1 then 0 else o.val; rw [if_pos rfl]
  | ⟨1, _⟩ => show f.val = if (144 : Nat) = 1 then 0 else f.val; rw [if_neg (by decide)]
  | ⟨2, _⟩ => show l.val = if (256 : Nat) = 1 then 0 else l.val; rw [if_neg (by decide)]

/-- The bias column spread along the pixels: entry (o, l) is bias (o, 0). -/
theorem bias_spread (xb : Vec Ideal S64x1 .f32) (o : Fin 64) (l : Fin 256) :
    broadcastTo S64x256 (shapeCast S64x1 xb shapeCasts_S64x1_S64x1) broadcasts_S64x1_S64x256 (ix2 o l) = xb (ix2 o (0 : Fin 1)) := by
  rw [shapeCast_self]
  refine broadcastTo_apply _ broadcasts_S64x1_S64x256 (ix2 o l) (ix2 o (0 : Fin 1)) (fun a => ?_)
  match a with
  | ⟨0, _⟩ => show o.val = if (64 : Nat) = 1 then 0 else o.val; rw [if_neg (by decide)]
  | ⟨1, _⟩ => show 0 = if (1 : Nat) = 1 then 0 else l.val; rw [if_pos rfl]

/-- The absolute value of a difference, read at an index, is the gap of the two entries. -/
theorem absf_subf_at {s : Shape} (A B : FVec Ideal s .f32) (i : s.Idx) : absf (subf A B) i = gap (A i) (B i) := rfl

/-- The stored value at (0, o, l). -/
theorem payload_at (xc : Vec Ideal S1x144x256 .f32) (xw : Vec Ideal S64x144 .f32) (xb : Vec Ideal S64x1 .f32) (o : Fin 64) (l : Fin 256) :
    k0_pay1 (F := Ideal) xc xw xb (ix3 (0 : Fin 1) o l)
      = (Finset.univ : Finset (Fin 144)).fold max (Ideal.ofBits .f32 0xFF800000#32)
          (fun f => gap (xw (ix2 o f)) (xc (ix3 (0 : Fin 1) f l))) + xb (ix2 o (0 : Fin 1)) := by
  unfold k0_pay1
  refine (shapeCast_ab_1ab_apply _ shapeCasts_S64x256_S1x64x256 (0 : Fin 1) o l).trans ?_
  refine (addf_apply _ _ (ix2 o l)).trans ?_
  refine congrArg₂ (· + ·) ?_ (bias_spread xb o l)
  refine (Ideal.multiReduction_maximumf_single _ _ reduces_S64x144x256_S64x256 (.inl rfl) rfl (ix2 o l)).trans ?_
  refine congrArg (fun g => Finset.fold max (Ideal.ofBits .f32 0xFF800000#32) g (Finset.univ : Finset (Fin 144))) (funext fun f => ?_)
  refine (congrArg _ (lift_row o l f)).trans ?_
  refine (absf_subf_at _ _ _).trans ?_
  exact congrArg₂ gap (weights_spread xw o f l) (columns_spread xc o f l)

end Cert.KernelIdeal.Dist

end
-- ==== Proof.IdealValue.lean ====
import proofs.«116493_j944892805269_1_alg».proof.Proof.IdealFrame
import proofs.«116493_j944892805269_1_alg».proof.Proof.IdealPayload
import Idealize.ShloMosaic.Lib.StableHlo.Run

/-! The region's output array, and the program's result, as the distance array.

  Grid point t = (n, k) reads image n's columns 256·k … 256·k + 255 and the whole weight matrix and bias column, and
  writes back rows (n, ·, 256·k …) of the output. So what it writes back is the block at t of ONE array: the distance
  array of the patch columns, the weights and the bias as the region finds them. The 32 blocks tile the output, hence
  after the run the output IS that array, and the program's result is its reshape. -/

set_option maxRecDepth 16384

noncomputable section

namespace Cert.KernelIdeal.Dist

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.DistSpec

variable (m : (ℓ : Loc nD τ sig) → Buf (Elt Ideal) ℓ) (ρ : Dev nD → PrngReg)

/-! ## The arrays the region finds, at their literal types -/

abbrev colsArr (c : Dev nD) : Vec Ideal S8x144x1024 .f32 := atEntry m c main_v20
abbrev weightArr (c : Dev nD) : Vec Ideal S64x144 .f32 := atEntry m c main_arg1
abbrev biasCol (c : Dev nD) : Vec Ideal S64x1 .f32 := atEntry m c main_v21

/-- A bias column read as a row of 64 entries. -/
def ofColumn (b : (⟨2, ![64, 1]⟩ : Shape).Idx → EReal) : (⟨1, ![64]⟩ : Shape).Idx → EReal := fun i => b (ix2 (i 0) (0 : Fin 1))

/-- The distance array of what the region finds. -/
def target (c : Dev nD) : Vec Ideal S8x64x1024 .f32 := distArr (colsArr m c) (weightArr m c) (ofColumn (biasCol m c))

/-! ## Where the blocks lie -/

/-- The index maps over the grid: the columns' block moves with the output's on the image and pixel axes, the weights
    and the bias stay put, and the output's block index is (n, 0, k) with n < 8, k < 4. -/
theorem block_indices : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (0 : Fin 3) < 8 ∧ win0_3.index t (2 : Fin 3) < 4 :=
  (by decide +kernel : ∀ t : Fin grid0.N, _)

/-- Every block (n, 0, k) of the output is some point's. -/
theorem block_onto : ∀ (n : Fin 8) (k : Fin 4), ∃ t : Fin cfg0.N, win0_3.index t = ![n.val, 0, k.val] :=
  (by decide +kernel : ∀ (n : Fin 8) (k : Fin 4), ∃ t : Fin grid0.N, win0_3.index t = ![n.val, 0, k.val])

/-- Entry (0, f, l) of the columns' block at t is column entry (n, f, 256·k + l). -/
theorem cols_block (c : Dev nD) (t : Fin cfg0.N) (f : Fin 144) (l : Fin 256) (n' : Fin 8) (l' : Fin 1024)
    (hn : n'.val = win0_3.index t (0 : Fin 3)) (hl : l'.val = win0_3.index t (2 : Fin 3) * 256 + l.val) :
    blockAt m c 0 t (ix3 (0 : Fin 1) f l) = colsArr m c (ix3 n' f l') := by
  obtain ⟨e0, e1, e2, -⟩ := block_indices t
  show colsArr m c (((cfg0.win 0).blk t).view.emb (ix3 (0 : Fin 1) f l)) = colsArr m c (ix3 n' f l')
  refine congrArg (colsArr m c) (funext fun a => Fin.ext ?_)
  match a with
  | ⟨0, _⟩ => show win0_0.index t (0 : Fin 3) * 1 + 1 * 0 = n'.val; omega
  | ⟨1, _⟩ => show win0_0.index t (1 : Fin 3) * 144 + 1 * f.val = f.val; omega
  | ⟨2, _⟩ => show win0_0.index t (2 : Fin 3) * 256 + 1 * l.val = l'.val; omega

/-- The weights' block is the whole matrix. -/
theorem weight_block (c : Dev nD) (t : Fin cfg0.N) (o : Fin 64) (f : Fin 144) :
    blockAt m c 1 t (ix2 o f) = weightArr m c (ix2 o f) := by
  obtain ⟨-, -, -, e3, e4, -⟩ := block_indices t
  show weightArr m c (((cfg0.win 1).blk t).view.emb (ix2 o f)) = weightArr m c (ix2 o f)
  refine congrArg (weightArr m c) (funext fun a => Fin.ext ?_)
  match a with
  | ⟨0, _⟩ => show win0_1.index t (0 : Fin 2) * 64 + 1 * o.val = o.val; omega
  | ⟨1, _⟩ => show win0_1.index t (1 : Fin 2) * 144 + 1 * f.val = f.val; omega

/-- The bias column's block is the whole column. -/
theorem bias_block (c : Dev nD) (t : Fin cfg0.N) (o : Fin 64) :
    blockAt m c 2 t (ix2 o (0 : Fin 1)) = biasCol m c (ix2 o (0 : Fin 1)) := by
  obtain ⟨-, -, -, -, -, e5, e6, -⟩ := block_indices t
  show biasCol m c (((cfg0.win 2).blk t).view.emb (ix2 o (0 : Fin 1))) = biasCol m c (ix2 o (0 : Fin 1))
  refine congrArg (biasCol m c) (funext fun a => Fin.ext ?_)
  match a with
  | ⟨0, _⟩ => show win0_2.index t (0 : Fin 2) * 64 + 1 * o.val = o.val; omega
  | ⟨1, _⟩ => show win0_2.index t (1 : Fin 2) * 1 + 1 * 0 = 0; omega

/-- Entry (0, o, l) of the output's block at t lies at (n, o, 256·k + l) of the output. -/
theorem out_emb (t : Fin cfg0.N) (o : Fin 64) (l : Fin 256) (n' : Fin 8) (l' : Fin 1024)
    (hn : n'.val = win0_3.index t (0 : Fin 3)) (hl : l'.val = win0_3.index t (2 : Fin 3) * 256 + l.val) :
    ((cfg0.win 3).blk t).view.emb (ix3 (0 : Fin 1) o l) = ix3 n' o l' := by
  obtain ⟨-, -, -, -, -, -, -, e7, -⟩ := block_indices t
  refine funext fun a => Fin.ext ?_
  match a with
  | ⟨0, _⟩ => show win0_3.index t (0 : Fin 3) * 1 + 1 * 0 = n'.val; omega
  | ⟨1, _⟩ => show win0_3.index t (1 : Fin 3) * 64 + 1 * o.val = o.val; omega
  | ⟨2, _⟩ => show win0_3.index t (2 : Fin 3) * 256 + 1 * l.val = l'.val; omega

/-! ## What a point writes back -/

/-- Point t writes back the block at t of the distance array: entry by entry the point's payload is the largest gap
    between a weight row and a column of the point's block, and the gap does not depend on which of the two comes first. -/
theorem flushed_eq (c : Dev nD) (t : Fin cfg0.N) :
    (data m 0 c).flushed 3 t = ((cfg0.win 3).blk t).view.read (Elt Ideal) (target m c) := by
  show (cfg0.win 3).cut (grid0.coords t) ((data m 0 c).after 3 t) = _
  rw [after_dist]
  funext j
  obtain ⟨u, o, l, rfl⟩ : ∃ (u : Fin 1) (o : Fin 64) (l : Fin 256), j = ix3 u o l := ⟨j 0, j 1, j 2, eq_ix3 j⟩
  obtain rfl : u = 0 := Subsingleton.elim _ _
  obtain ⟨-, -, -, -, -, -, -, -, b0, b2⟩ := block_indices t
  have hl : win0_3.index t (2 : Fin 3) * 256 + l.val < 1024 := by have := l.isLt; omega
  show k0_pay1 (F := Ideal) (blockAt m c 0 t) (blockAt m c 1 t) (blockAt m c 2 t) (ix3 (0 : Fin 1) o l)
      = target m c (((cfg0.win 3).blk t).view.emb (ix3 (0 : Fin 1) o l))
  rw [out_emb t o l ⟨win0_3.index t (0 : Fin 3), b0⟩ ⟨win0_3.index t (2 : Fin 3) * 256 + l.val, hl⟩ rfl rfl, payload_at]
  unfold target
  rw [distArr_ix3]
  unfold Cert.DistSpec.dist
  refine congrArg₂ (· + ·) ?_ (bias_block m c t o)
  refine congrArg (fun g => Finset.fold max (Ideal.ofBits .f32 0xFF800000#32) g (Finset.univ : Finset (Fin 144))) (funext fun f => ?_)
  rw [weight_block m c t o f,
    cols_block m c t f l ⟨win0_3.index t (0 : Fin 3), b0⟩ ⟨win0_3.index t (2 : Fin 3) * 256 + l.val, hl⟩ rfl rfl]
  exact gap_comm _ _

/-! ## The blocks tile the output -/

/-- An index of the output is in point t's block iff each coordinate is in the block's range. -/
theorem mem_block (t : Fin cfg0.N) (i : S8x64x1024.Idx) :
    i ∈ ((cfg0.win 3).blk t).view.set ↔ ∀ a : Fin 3, win0_3.index t a * S1x64x256.size a ≤ (i a).val
      ∧ (i a).val < win0_3.index t a * S1x64x256.size a + S1x64x256.size a := by
  show i ∈ ((View.whole main_v22).slice (win0_3.rect t)).set ↔ _
  rw [View.set_slice_whole, Rect.mem_set_unit]
  exact Iff.rfl

/-- Every index (n, o, p) of the output is in the block of the point with block index (n, 0, p / 256). -/
theorem covered (i : S8x64x1024.Idx) : ∃ t : Fin cfg0.N, (cfg0.win 3).flush t = true ∧ i ∈ ((cfg0.win 3).blk t).view.set := by
  have h0 : (i 0).val < 8 := (i 0).isLt
  have h1 : (i 1).val < 64 := (i 1).isLt
  have h2 : (i 2).val < 1024 := (i 2).isLt
  obtain ⟨t, ht⟩ := block_onto ⟨(i 0).val, h0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 256 ≤ (i 2).val ∧ (i 2).val < win0_3.index t (2 : Fin 3) * 256 + 256; omega

/-- After the run the output array is the distance array. -/
theorem output_eq (c : Dev nD) : (data m 0 c).arrAt 3 cfg0.N = target m c :=
  (data m 0 c).arrAt_eq_of_cover 3 (target m c) (fun t _ => flushed_eq m c t) covered

/-! ## The program's result -/

/-- The closing reshape reads the region's output: the result buffer ends at the reshaped distance array. -/
theorem result_eq (c : Dev nD) :
    atEnd m c main_v23 = shapeCast S8x64x32x32 (target m c) shapeCasts_S8x64x1024_S8x64x32x32 := by
  unfold atEnd Pipeline.afterTail₀
  show StableHlo.after hostOps1 _ (Proc.devRef .tc main_v23) = _
  after_results
  exact congrArg (fun v => shapeCast S8x64x32x32 v shapeCasts_S8x64x1024_S8x64x32x32)
    ((Pipeline.withArrays_arr spec0 launch0.win.arr_inj c _ _ 3).trans (output_eq m c))

/-- The program's run with its result named: it ends with the result buffer at the reshaped distance array and the three
    arguments as launched. -/
theorem run_value : θ_run defs (onTc (τ := τ) (main (F := Ideal))) ⟨m, fun _ => 0, ρ⟩ (fun r => ∀ c : Dev nD,
      r.2.mem ((c.tc : Thread nD τ).loc main_v23) = shapeCast S8x64x32x32 (target m c) shapeCasts_S8x64x1024_S8x64x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of main_v23 (by decide) (by decide))).trans (result_eq m c), args_kept m h c⟩)
    (run_main m ρ)

end Cert.KernelIdeal.Dist

end
-- ==== Proof.RefDist.lean ====
import proofs.«116493_j944892805269_1_alg».proof.Proof.Gen.ReferenceIdeal.Run
import proofs.«116493_j944892805269_1_alg».proof.Proof.Gen.ReferenceIdeal.Read
import proofs.«116493_j944892805269_1_alg».proof.Proof.DistSpec
import Idealize.ShloMosaic.PureOps.Ideal.Laws
import Idealize.ShloMosaic.PureOps.Reduce

/-! The reference computes the distance array.

  After it has built the patch columns, the reference spreads them along a new output-channel axis and the weights
  along the image and pixel axes, subtracts, takes absolute values, takes the maximum along the patch-row axis and adds
  the bias spread along images and pixels. Read at (n, o, l) that is the largest gap between column (n, ·, l) and
  weight row o, plus the bias of o. The patch columns themselves are carried as one closed array. -/

noncomputable section

namespace Cert.ReferenceIdeal.Dist

open Idealize.ShloMosaic Idealize.ShloMosaic.ValueIdx
open Cert.ReferenceIdeal Cert.ReferenceIdeal.Gen Cert.ReferenceIdeal.Read Cert.DistSpec

/-- The reduction drops the patch-row axis of (n, o, f, l). -/
theorem dropsRows : S8x64x144x1024.Reduces [2] S8x64x1024 := by decide

/-- Entry (n, o, l) with patch row f put back is (n, o, f, l). -/
theorem lift_row (n : Fin 8) (o : Fin 64) (l : Fin 1024) (f : Fin (S8x64x144x1024.size 2)) :
    dropsRows.lift (ix3 n o l) f = ix4 n o (⟨f.val, f.isLt⟩ : Fin 144) l := by
  funext c; apply Fin.ext
  fin_cases c <;> rfl

/-- The columns spread along the output channels: entry (n, o, f, l) is column entry (n, f, l). -/
theorem columns_spread (x : (⟨S8x16x32x32, .f32⟩ : BufTy).Contents (Elt Ideal)) (n : Fin 8) (o : Fin 64) (f : Fin 144) (l : Fin 1024) :
    val_main_v23 (F := Ideal) x (ix4 n o f l) = val_main_v20 (F := Ideal) x (ix3 n f l) := by
  rw [val_main_v23_apply, val_main_v21_apply]
  exact congrArg _ (funext fun a => Fin.ext (by match a with | ⟨0, _⟩ => rfl | ⟨1, _⟩ => rfl | ⟨2, _⟩ => rfl))

/-- The weights spread along images and pixels: entry (n, o, f, l) is weight (o, f). -/
theorem weights_spread (w : (⟨S64x144, .f32⟩ : BufTy).Contents (Elt Ideal)) (n : Fin 8) (o : Fin 64) (f : Fin 144) (l : Fin 1024) :
    val_main_v24 (F := Ideal) w (ix4 n o f l) = w (ix2 o f) := by
  rw [val_main_v24_apply, val_main_v22_apply]
  exact congrArg w (funext fun a => Fin.ext (by match a with | ⟨0, _⟩ => rfl | ⟨1, _⟩ => rfl))

/-- The bias spread along images and pixels: entry (n, o, l) is the bias of o. -/
theorem bias_spread (b : (⟨S64, .f32⟩ : BufTy).Contents (Elt Ideal)) (n : Fin 8) (o : Fin 64) (l : Fin 1024) :
    val_main_v29 (F := Ideal) b (ix3 n o l) = b (ix1 o) := by
  rw [val_main_v29_apply, val_main_v28_apply]
  exact congrArg b (funext fun a => Fin.ext (by match a with | ⟨0, _⟩ => rfl))

/-- The absolute differences at (n, o, f, l): the gap between the column entry and the weight. -/
theorem gap_at (x : (⟨S8x16x32x32, .f32⟩ : BufTy).Contents (Elt Ideal)) (w : (⟨S64x144, .f32⟩ : BufTy).Contents (Elt Ideal))
    (n : Fin 8) (o : Fin 64) (f : Fin 144) (l : Fin 1024) :
    val_main_v26 (F := Ideal) x w (ix4 n o f l) = gap (val_main_v20 (F := Ideal) x (ix3 n f l)) (w (ix2 o f)) :=
  (show val_main_v26 (F := Ideal) x w (ix4 n o f l)
      = gap (val_main_v23 (F := Ideal) x (ix4 n o f l)) (val_main_v24 (F := Ideal) w (ix4 n o f l)) from rfl).trans
    (congrArg₂ gap (columns_spread x n o f l) (weights_spread w n o f l))

/-- The reference's array before its last reshape is the distance array of the patch columns, the weights and the bias. -/
theorem result_eq (x : (⟨S8x16x32x32, .f32⟩ : BufTy).Contents (Elt Ideal)) (w : (⟨S64x144, .f32⟩ : BufTy).Contents (Elt Ideal))
    (b : (⟨S64, .f32⟩ : BufTy).Contents (Elt Ideal)) :
    val_main_v30 (F := Ideal) x w b = distArr (val_main_v20 (F := Ideal) x) w b := by
  funext j
  obtain ⟨n, o, l, rfl⟩ : ∃ (n : Fin 8) (o : Fin 64) (l : Fin 1024), j = ix3 n o l := ⟨j 0, j 1, j 2, eq_ix3 j⟩
  refine (val_main_v30_apply x w b _).trans ?_
  refine Eq.trans ?_ (distArr_ix3 _ w b n o l).symm
  refine congrArg₂ (· + ·) ?_ (bias_spread b n o l)
  unfold val_main_v27
  refine (Host.reduce_eq_fold_single FloatOps.maximumf _ _ reducesTo_S8x64x144x1024_S8x64x1024_d2 dropsRows h_S_ (ix3 n o l)).trans ?_
  refine congrArg (fun g => Finset.fold max (Ideal.ofBits .f32 0xFF800000#32) g (Finset.univ : Finset (Fin 144))) (funext fun f => ?_)
  refine (congrArg _ (lift_row n o l f)).trans ?_
  exact gap_at x w n o f l

end Cert.ReferenceIdeal.Dist

end
-- ==== Proof.Bridge.lean ====
import proofs.«116493_j944892805269_1_alg».proof.Proof.IdealValue
import proofs.«116493_j944892805269_1_alg».proof.Proof.RefDist
import Idealize.ShloMosaic.Lib.StableHlo.Run

/-! The two programs meet.

  Both programs build the patch columns from the image by the same host operations — pad by a zero, nine shifted
  slices, stack, lay out as a matrix — so the array the kernel's region finds is the reference's own array of patch
  columns of the same image, taken as a whole and never opened. The weights reach the region untouched, and the bias
  reaches it as a column whose entry (o, 0) is bias o. Hence the kernel's distance array and the reference's are the
  distance array of the same three arrays. -/

set_option maxRecDepth 16384

noncomputable section

namespace Cert.Proof.Dist

open Idealize.ShloMosaic Idealize.ShloMosaic.TcCoe Idealize.ShloMosaic.ValueIdx Idealize.ShloMosaic.StableHlo
open Idealize.SL.Sem
open Cert.DistSpec

variable (m : (ℓ : Loc Cert.KernelIdeal.nD Cert.KernelIdeal.τ Cert.KernelIdeal.sig) → Buf (Elt Ideal) ℓ)

/-- The matrix of patch columns the region finds is the reference's stage of the same image. -/
theorem columns_same (c : Dev Cert.KernelIdeal.nD) :
    Cert.KernelIdeal.Dist.colsArr m c
      = Cert.ReferenceIdeal.Read.val_main_v20 (F := Ideal) (m ((c : Thread Cert.KernelIdeal.nD Cert.KernelIdeal.τ).loc Cert.KernelIdeal.main_arg0)) := by
  show StableHlo.after (List.flatten [Cert.KernelIdeal.Gen.hostOps0, Cert.KernelIdeal.Gen.hostOps0_1, Cert.KernelIdeal.Gen.hostOps0_2]) (fun b => m (c, b))
      (Proc.devRef .tc Cert.KernelIdeal.main_v20) = _
  simp only [Cert.KernelIdeal.Gen.hostOps0, Cert.KernelIdeal.Gen.hostOps0_1, Cert.KernelIdeal.Gen.hostOps0_2, List.flatten_cons, List.flatten_nil,
    List.append_nil, List.cons_append, List.nil_append]
  after_results
  unfold Cert.ReferenceIdeal.Read.val_main_v20 Cert.ReferenceIdeal.Read.val_main_v19 Cert.ReferenceIdeal.Read.val_main_v10 Cert.ReferenceIdeal.Read.val_main_v11
    Cert.ReferenceIdeal.Read.val_main_v12 Cert.ReferenceIdeal.Read.val_main_v13 Cert.ReferenceIdeal.Read.val_main_v14 Cert.ReferenceIdeal.Read.val_main_v15 Cert.ReferenceIdeal.Read.val_main_v16
    Cert.ReferenceIdeal.Read.val_main_v17 Cert.ReferenceIdeal.Read.val_main_v18 Cert.ReferenceIdeal.Read.val_main_v1 Cert.ReferenceIdeal.Read.val_main_v2 Cert.ReferenceIdeal.Read.val_main_v3
    Cert.ReferenceIdeal.Read.val_main_v4 Cert.ReferenceIdeal.Read.val_main_v5 Cert.ReferenceIdeal.Read.val_main_v6 Cert.ReferenceIdeal.Read.val_main_v7 Cert.ReferenceIdeal.Read.val_main_v8
    Cert.ReferenceIdeal.Read.val_main_v9 Cert.ReferenceIdeal.Read.val_main_v0 Cert.ReferenceIdeal.Read.val_main_call0_v0 Cert.ReferenceIdeal.Read.val_main_c
  rfl

/-- The bias column the region finds is the bias laid out as a column. -/
theorem bias_column (c : Dev Cert.KernelIdeal.nD) :
    Cert.KernelIdeal.Dist.biasCol m c
      = shapeCast Cert.KernelIdeal.S64x1 (m ((c : Thread Cert.KernelIdeal.nD Cert.KernelIdeal.τ).loc Cert.KernelIdeal.main_arg2)) Cert.KernelIdeal.Facts₀.shapeCasts_S64_S64x1 := by
  show StableHlo.after (List.flatten [Cert.KernelIdeal.Gen.hostOps0, Cert.KernelIdeal.Gen.hostOps0_1, Cert.KernelIdeal.Gen.hostOps0_2]) (fun b => m (c, b))
      (Proc.devRef .tc Cert.KernelIdeal.main_v21) = _
  simp only [Cert.KernelIdeal.Gen.hostOps0, Cert.KernelIdeal.Gen.hostOps0_1, Cert.KernelIdeal.Gen.hostOps0_2, List.flatten_cons, List.flatten_nil,
    List.append_nil, List.cons_append, List.nil_append]
  after_results
  rfl

/-- Read back as a row, that column is the bias. -/
theorem bias_same (c : Dev Cert.KernelIdeal.nD) :
    Cert.KernelIdeal.Dist.ofColumn (Cert.KernelIdeal.Dist.biasCol m c) = m ((c : Thread Cert.KernelIdeal.nD Cert.KernelIdeal.τ).loc Cert.KernelIdeal.main_arg2) := by
  rw [bias_column]
  funext i
  obtain ⟨o, rfl⟩ : ∃ o : Fin 64, i = ix1 o := ⟨i 0, eq_ix1 i⟩
  exact shapeCast_apply _ Cert.KernelIdeal.Facts₀.shapeCasts_S64_S64x1 (ix2 o (0 : Fin 1)) (ix1 o) (by
    rw [Shape.rowMajor_val_one, Shape.rowMajor_val_two]
    show o.val = o.val * 1 + 0
    omega)

/-- The kernel's distance array is the distance array of the reference's patch columns, the weights and the bias. -/
theorem target_eq (c : Dev Cert.KernelIdeal.nD) :
    Cert.KernelIdeal.Dist.target m c
      = distArr (Cert.ReferenceIdeal.Read.val_main_v20 (F := Ideal) (m ((c : Thread Cert.KernelIdeal.nD Cert.KernelIdeal.τ).loc Cert.KernelIdeal.main_arg0)))
          (m ((c : Thread Cert.KernelIdeal.nD Cert.KernelIdeal.τ).loc Cert.KernelIdeal.main_arg1)) (m ((c : Thread Cert.KernelIdeal.nD Cert.KernelIdeal.τ).loc Cert.KernelIdeal.main_arg2)) := by
  unfold Cert.KernelIdeal.Dist.target
  rw [columns_same, bias_same]
  exact congrArg (fun w => distArr _ w _) (Cert.KernelIdeal.Dist.entry_weight m c)

end Cert.Proof.Dist

end
-- ==== Proof.lean ====
/- The L∞-distance convolution kernel against its jnp reference: both compute, at image n, output channel o and pixel l,
   the largest absolute difference between patch column (n, ·, l) of the zero-padded image and weight row o, over the
   144 patch rows, plus the bias of o.

   The kernel's program builds the patch columns on the host, runs one kernel region over an 8 × 4 grid (one image and
   256 pixels per point), and reshapes. Its frame, at the machine's words and at the ideal values alike, is the run of
   that region with every block read and written whole. At the ideal values its output array is the distance array of
   the patch columns, the weights and the bias; the reference's is the same array of the same three, its maximum taken
   by the host's reduction and its difference written the other way round, which an absolute value does not see. -/
import proofs.«116493_j944892805269_1_alg».proof.Defs
import proofs.«116493_j944892805269_1_alg».proof.Proof.Gen.Kernel
import proofs.«116493_j944892805269_1_alg».proof.Proof.Gen.KernelIdeal
import proofs.«116493_j944892805269_1_alg».proof.Proof.Gen.ReferenceIdeal
import proofs.«116493_j944892805269_1_alg».proof.Proof.Gen.Pre_finite_inputs
import proofs.«116493_j944892805269_1_alg».proof.Proof.Gen.ReferenceIdeal.Run
import proofs.«116493_j944892805269_1_alg».proof.Proof.Gen.ReferenceIdeal.Read
import proofs.«116493_j944892805269_1_alg».proof.Proof.BitsFrame
import proofs.«116493_j944892805269_1_alg».proof.Proof.IdealFrame
import proofs.«116493_j944892805269_1_alg».proof.Proof.IdealValue
import proofs.«116493_j944892805269_1_alg».proof.Proof.RefDist
import proofs.«116493_j944892805269_1_alg».proof.Proof.Bridge
import Idealize.ShloMosaic.Adequacy
import Idealize.ShloMosaic.Init

noncomputable section

namespace Cert.Proof

open Idealize.ShloMosaic Idealize.SL.Sem

/-- The kernel's program at the machine's words runs to its end and keeps its arguments. -/
theorem frame_kernel : Cert.frame_Kernel := fun m ρ _ => Cert.Kernel.Dist.frame m ρ

/-- The same at the ideal values. -/
theorem frame_kernelIdeal : Cert.frame_KernelIdeal := fun m ρ _ => Cert.KernelIdeal.Dist.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the ideal values. -/
theorem preserves : Cert.preserves_Kernel_KernelIdeal := trivial

/-- From memories that agree on the image, the weights and the bias both programs end with the reshaped distance array
    of the image's patch columns, the weights and the bias. -/
theorem algebraic : Cert.algebraic_KernelIdeal_ReferenceIdeal := by
  intro m ρ m' ρ' _ hagree
  refine ⟨fun c => shapeCast Cert.KernelIdeal.S8x64x32x32 (Cert.KernelIdeal.Dist.target m c)
    Cert.KernelIdeal.Facts₀.shapeCasts_S8x64x1024_S8x64x32x32, Cert.KernelIdeal.Dist.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  show _ = shapeCast Cert.KernelIdeal.S8x64x32x32 (Cert.KernelIdeal.Dist.target m c)
    Cert.KernelIdeal.Facts₀.shapeCasts_S8x64x1024_S8x64x32x32
  rw [Cert.Proof.Dist.target_eq]
  unfold Cert.ReferenceIdeal.Read.val_main_v31
  rw [Cert.ReferenceIdeal.Dist.result_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
